-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S192x256 .f32) (main_arg3 : FVec F S256 .f32) (main_arg4 : FVec F S256x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S192x256 .f32 := Host.absf main_arg2
  let main_cst_0 : FVec F S_ .f32 := constant S_ .f32 0x7F800000#32
  let main_v5 : FVec F S192x256 .f32 := broadcastInDim S192x256 ![] bcast_S_S192x256 main_cst_0
  let main_v6 : IVec S192x256 1 := cmpf .olt main_v4 main_v5
  let main_c_1 : IVec S_ 1 := constantI S_ 1 1#1
  let main_v7 : IVec S_ 1 := (fun x v => Host.reduce IntOp.andi x v reducesTo_S192x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S100000x64 : Shape := ⟨2, ![100000, 64]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x192 : Shape := ⟨2, ![100000, 192]⟩
abbrev S4000x192 : Shape := ⟨2, ![4000, 192]⟩
abbrev S4000x128 : Shape := ⟨2, ![4000, 128]⟩
abbrev S4000x256 : Shape := ⟨2, ![4000, 256]⟩
abbrev S1x256 : Shape := ⟨2, ![1, 256]⟩
abbrev S1x128 : Shape := ⟨2, ![1, 128]⟩

abbrev nBuf : Space → Nat
  | .hbm => 43
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S192x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S3200000, .i32⟩
  | .hbm, ⟨12, _⟩ => ⟨S3200000, .i32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x64, .f32⟩
  | .hbm, ⟨22, _⟩ => ⟨S_, .f32⟩
  | .hbm, ⟨23, _⟩ => ⟨S100000x64, .f32⟩
  | .hbm, ⟨24, _⟩ => ⟨S3200000x1, .i32⟩
  | .hbm, ⟨25, _⟩ => ⟨S100000x64, .f32⟩
  | .hbm, ⟨26, _⟩ => ⟨S_, .f32⟩
  | .hbm, ⟨27, _⟩ => ⟨S3200000, .f32⟩
  | .hbm, ⟨28, _⟩ => ⟨S_, .f32⟩
  | .hbm, ⟨29, _⟩ => ⟨S100000, .f32⟩
  | .hbm, ⟨30, _⟩ => ⟨S3200000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S100000x192, .f32⟩
  | .hbm, ⟨39, _⟩ => ⟨S100000x192, .bf16⟩
  | .hbm, ⟨40, _⟩ => ⟨S192x256, .bf16⟩
  | .hbm, ⟨41, _⟩ => ⟨S256x128, .bf16⟩
  | .hbm, ⟨42, _⟩ => ⟨S100000x128, .f32⟩
  | .local _ .vmem, ⟨0, _⟩ => ⟨S4000x192, .bf16⟩
  | .local _ .vmem, ⟨1, _⟩ => ⟨S4000x192, .bf16⟩
  | .local _ .vmem, ⟨2, _⟩ => ⟨S192x256, .bf16⟩
  | .local _ .vmem, ⟨3, _⟩ => ⟨S256, .f32⟩
  | .local _ .vmem, ⟨4, _⟩ => ⟨S256x128, .bf16⟩
  | .local _ .vmem, ⟨5, _⟩ => ⟨S128, .f32⟩
  | .local _ .vmem, ⟨6, _⟩ => ⟨S4000x128, .f32⟩
  | .local _ .vmem, ⟨7, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x128_S100000x64_0_0 : S100000x128.Slices ![0, 0] S100000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bitsLt_bf16_f32 : FTy.bits .bf16 < FTy.bits .f32
  inb_S4000x192_S4000x192_0_0 : ∀ a, (![0, 0] : Fin 2 → Nat) a + S4000x192.size a ≤ S4000x192.size a
  h_S4000x192 : 0 < S4000x192.numel
  shapeCasts_S4000x192_S4000x192 : S4000x192.ShapeCasts S4000x192
  inb_S192x256_S192x256_0_0 : ∀ a, (![0, 0] : Fin 2 → Nat) a + S192x256.size a ≤ S192x256.size a
  h_S192x256 : 0 < S192x256.numel
  shapeCasts_S192x256_S192x256 : S192x256.ShapeCasts S192x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S4000x192_S192x256_S4000x256_1_0_0_1_n_n_wf : DotDims.WF S4000x192 S192x256 S4000x256 [1] [0] [0] [1] [] []
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x192.size a ≤ S100000x192.size a
  hwx0_0 : ∀ i : grid0.Coords, EltTy.bits .bf16 = 32 ∨ (Rect.block (s := S100000x192) S4000x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x256.size a ≤ S192x256.size a
  hwx0_1 : ∀ i : grid0.Coords, EltTy.bits .bf16 = 32 ∨ (Rect.block (s := S192x256) S192x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S4000x192_S192x256_S4000x256_1_0_0_1_n_n : DotDims S4000x192 S192x256 S4000x256 where
  lhsContracting := [1]
  rhsContracting := [0]
  lhsNonContracting := [0]
  rhsNonContracting := [1]
  lhsBatch := []
  rhsBatch := []
  wf := dot_S4000x192_S192x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v27) S4000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S192x256 : Shape := ⟨2, ![192, 256]⟩
abbrev S256 : Shape := ⟨1, ![256]⟩
abbrev S256x128 : Shape := ⟨2, ![256, 128]⟩
abbrev S128 : Shape := ⟨1, ![128]⟩
abbrev S100000x64 : Shape := ⟨2, ![100000, 64]⟩
abbrev S1x1600000 : Shape := ⟨2, ![1, 1600000]⟩
abbrev S1600000 : Shape := ⟨1, ![1600000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x192 : Shape := ⟨2, ![100000, 192]⟩
abbrev S100000x256 : Shape := ⟨2, ![100000, 256]⟩
abbrev S1x256 : Shape := ⟨2, ![1, 256]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S192x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S100000x64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S3200000, .i32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S_, .f32⟩
  | .hbm, ⟨31, _⟩ => ⟨S3200000, .f32⟩
  | .hbm, ⟨32, _⟩ => ⟨S_, .f32⟩
  | .hbm, ⟨33, _⟩ => ⟨S100000, .f32⟩
  | .hbm, ⟨34, _⟩ => ⟨S3200000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S100000x192, .f32⟩
  | .hbm, ⟨43, _⟩ => ⟨S100000x256, .f32⟩
  | .hbm, ⟨44, _⟩ => ⟨S1x256, .f32⟩
  | .hbm, ⟨45, _⟩ => ⟨S100000x256, .f32⟩
  | .hbm, ⟨46, _⟩ => ⟨S100000x256, .f32⟩
  | .hbm, ⟨47, _⟩ => ⟨S_, .f32⟩
  | .hbm, ⟨48, _⟩ => ⟨S100000x256, .f32⟩
  | .hbm, ⟨49, _⟩ => ⟨S100000x256, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_cst : Ref sig .tc := ⟨.hbm, 47, rfl⟩
abbrev main_call0_v0 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S100000x128_S100000x64_0_0 : S100000x128.Slices ![0, 0] S100000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S1600000_S3200000_d0 : Shape.Concatenates [S1600000, S1600000] S3200000 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x128_S100000x64_S100000x192_d1 : Shape.Concatenates [S100000x128, S100000x64] S100000x192 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x192_S192x256_S100000x256_1_0_0_1_n_n_wf : DotDims.WF S100000x192 S192x256 S100000x256 [1] [0] [0] [1] [] []
  dot_S100000x256_S256x128_S100000x128_1_0_0_1_n_n_wf : DotDims.WF S100000x256 S256x128 S100000x128 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x192_S192x256_S100000x256_1_0_0_1_n_n : DotDims S100000x192 S192x256 S100000x256 where
  lhsContracting := [1]
  rhsContracting := [0]
  lhsNonContracting := [0]
  rhsNonContracting := [1]
  lhsBatch := []
  rhsBatch := []
  wf := dot_S100000x192_S192x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.MlpSpec.lean ====
/-
  A two-layer perceptron applied to every row of an array, as one function of its five arrays.

  For an array `C` of `N` rows and 192 columns, a first layer `W1` (192 by 256) with bias `b1`, and a second layer
  `W2` (256 by 128) with bias `b2`, the hidden activation of row `i` at unit `k` is

      hidden i k = max (∑ l < 192, C (i, l) * W1 (l, k) + b1 k) 0

  and the result at `(i, q)` is

      out (i, q) = ∑ k < 256, hidden i k * W2 (k, q) + b2 q.

  Every row is computed from that row of `C` alone.  So a band of consecutive rows of the result is the same function
  of the same band of `C` (`out_band`): this is what lets a computation that treats 4000 rows at a time be compared
  with one that treats all 100000 rows at once.  Nothing here needs the entries to be finite: only sums, products
  and maxima of extended reals are formed, and the same ones on both sides.
-/
import Idealize.ShloMosaic.PureOps.Ideal
import Idealize.ShloMosaic.Lib.ValueIdx

noncomputable section

open scoped BigOperators

namespace Mlp

open Idealize.ShloMosaic Idealize.ShloMosaic.ValueIdx

/-- The hidden activation of row `i` at unit `k`: the first layer's affine map followed by the positive part. -/
def hidden {N : Nat} (C : (⟨2, ![N, 192]⟩ : Shape).Idx → EReal) (W1 : (⟨2, ![192, 256]⟩ : Shape).Idx → EReal)
    (b1 : (⟨1, ![256]⟩ : Shape).Idx → EReal) (i : Fin N) (k : Fin 256) : EReal :=
  max ((∑ l : Fin 192, C (ix2 i l) * W1 (ix2 l k)) + b1 (ix1 k)) 0

/-- The perceptron's result, index by index. -/
def out {N : Nat} (C : (⟨2, ![N, 192]⟩ : Shape).Idx → EReal) (W1 : (⟨2, ![192, 256]⟩ : Shape).Idx → EReal)
    (b1 : (⟨1, ![256]⟩ : Shape).Idx → EReal) (W2 : (⟨2, ![256, 128]⟩ : Shape).Idx → EReal)
    (b2 : (⟨1, ![128]⟩ : Shape).Idx → EReal) : (⟨2, ![N, 128]⟩ : Shape).Idx → EReal :=
  fun j => (∑ k : Fin 256, hidden C W1 b1 (j 0) k * W2 (ix2 k (j 1))) + b2 (ix1 (j 1))

/-- The result read at explicit coordinates. -/
theorem out_ix2 {N : Nat} (C : (⟨2, ![N, 192]⟩ : Shape).Idx → EReal) (W1 : (⟨2, ![192, 256]⟩ : Shape).Idx → EReal)
    (b1 : (⟨1, ![256]⟩ : Shape).Idx → EReal) (W2 : (⟨2, ![256, 128]⟩ : Shape).Idx → EReal)
    (b2 : (⟨1, ![128]⟩ : Shape).Idx → EReal) (i : Fin N) (q : Fin 128) :
    out C W1 b1 W2 b2 (ix2 i q) = (∑ k : Fin 256, hidden C W1 b1 i k * W2 (ix2 k q)) + b2 (ix1 q) := rfl

/-- A row of the result depends on that row of `C` only: if row `p` of `B` is row `i` of `C`, then row `p` of the
    perceptron of `B` is row `i` of the perceptron of `C`. -/
theorem out_band {M N : Nat} (B : (⟨2, ![M, 192]⟩ : Shape).Idx → EReal) (C : (⟨2, ![N, 192]⟩ : Shape).Idx → EReal)
    (W1 : (⟨2, ![192, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (p : Fin M) (i : Fin N) (hrow : ∀ l : Fin 192, B (ix2 p l) = C (ix2 i l)) (q : Fin 128) :
    out B W1 b1 W2 b2 (ix2 p q) = out C W1 b1 W2 b2 (ix2 i q) := by
  rw [out_ix2, out_ix2]
  refine congrArg (· + b2 (ix1 q)) (Finset.sum_congr rfl fun k _ => ?_)
  unfold hidden
  rw [Finset.sum_congr rfl fun l _ => by rw [hrow l]]

end Mlp
-- ==== Proof.MlpRef.lean ====
/-
  The reference's result is the perceptron of the combined feature array.

  The reference forms the combined feature array (the node features beside the degree-normalised neighbour sums),
  multiplies it by the first weight matrix, adds the first bias along the rows, clips below at zero, multiplies by
  the second weight matrix and adds the second bias along the rows.  Read at the extended reals each matrix product
  is the plain sum of products over the contracted axis, so index by index the result is the specification's
  perceptron applied to the combined array, whatever that array holds: nothing about how it was formed is used.
-/
import proofs.«154789_j84378927497574_1_alg».proof.Proof.Gen.ReferenceIdeal.Read
import proofs.«154789_j84378927497574_1_alg».proof.Proof.MlpSpec
import Idealize.ShloMosaic.Lib.ValueIdx
import Idealize.ShloMosaic.PureOps.Ideal.Laws

noncomputable section

open scoped BigOperators

namespace Cert.ReferenceIdeal.RefMlp

open Cert.ReferenceIdeal Cert.ReferenceIdeal.Gen Cert.ReferenceIdeal.Read Idealize.ShloMosaic Idealize.ShloMosaic.ValueIdx

/-- The hidden activations of the reference, at row `p` and unit `k`. -/
theorem hidden_eq (x0 : (⟨S100000x128, .f32⟩ : BufTy).Contents (Elt Ideal)) (x1 : (⟨S2x1600000, .i32⟩ : BufTy).Contents (Elt Ideal))
    (x2 : (⟨S192x256, .f32⟩ : BufTy).Contents (Elt Ideal)) (x3 : (⟨S256, .f32⟩ : BufTy).Contents (Elt Ideal))
    (p : Fin 100000) (k : Fin 256) :
    val_main_v35 (F := Ideal) x0 x1 x2 x3 (ix2 p k) = Mlp.hidden (val_main_v30 (F := Ideal) x0 x1) x2 x3 p k := by
  have e1 : ∀ l : Fin 192, lidx_main_v31 (ix2 p k) l = ix2 p l := fun l => funext fun a => by
    match a with | ⟨0, _⟩ => rfl | ⟨1, _⟩ => rfl
  have e2 : ∀ l : Fin 192, ridx_main_v31 (ix2 p k) l = ix2 l k := fun l => funext fun a => by
    match a with | ⟨0, _⟩ => rfl | ⟨1, _⟩ => rfl
  have e3 : idx_main_v32 (idx_main_v33 (ix2 p k)) = ix1 k := funext fun a => by
    match a with | ⟨0, _⟩ => rfl
  rw [val_main_v35_apply, val_main_v34_apply, val_main_v31_apply, val_main_v33_apply, val_main_v32_apply,
    val_main_call0_v0_apply, val_main_call0_cst_apply]
  simp only [e1, e2, e3]
  unfold Mlp.hidden
  show max ((∑ l : Fin 192, val_main_v30 (F := Ideal) x0 x1 (ix2 p l) * x2 (ix2 l k)) + x3 (ix1 k)) (Ideal.ofBits .f32 0x00000000#32) = _
  rw [Ideal.ofBits_zero_f32]

/-- THE REFERENCE'S RESULT, as a function of the combined array and the four parameter arrays. -/
theorem result_eq (x0 : (⟨S100000x128, .f32⟩ : BufTy).Contents (Elt Ideal)) (x1 : (⟨S2x1600000, .i32⟩ : BufTy).Contents (Elt Ideal))
    (x2 : (⟨S192x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal)) :
    val_main_v39 (F := Ideal) x0 x1 x2 x3 x4 x5 = Mlp.out (val_main_v30 (F := Ideal) x0 x1) x2 x3 x4 x5 := by
  funext i
  obtain ⟨p, q, rfl⟩ : ∃ (p : Fin 100000) (q : Fin 128), i = ix2 p q := ⟨i 0, i 1, eq_ix2 i⟩
  have e1 : ∀ k : Fin 256, lidx_main_v36 (ix2 p q) k = ix2 p k := fun k => funext fun a => by
    match a with | ⟨0, _⟩ => rfl | ⟨1, _⟩ => rfl
  have e2 : ∀ k : Fin 256, ridx_main_v36 (ix2 p q) k = ix2 k q := fun k => funext fun a => by
    match a with | ⟨0, _⟩ => rfl | ⟨1, _⟩ => rfl
  have e3 : idx_main_v37 (idx_main_v38 (ix2 p q)) = ix1 q := funext fun a => by
    match a with | ⟨0, _⟩ => rfl
  rw [val_main_v39_apply, val_main_v36_apply, val_main_v38_apply, val_main_v37_apply, Mlp.out_ix2]
  simp only [e1, e2, e3]
  show (∑ k : Fin 256, val_main_v35 (F := Ideal) x0 x1 x2 x3 (ix2 p k) * x4 (ix2 k q)) + x5 (ix1 q) = _
  refine congrArg (· + x5 (ix1 q)) (Finset.sum_congr rfl fun k _ => ?_)
  rw [hidden_eq]

end Cert.ReferenceIdeal.RefMlp

end
-- ==== Proof.MlpHead.lean ====
/-
  The arrays the kernel's region is launched on, as functions of the program's arguments.

  Before the region the program forms the combined feature array on the host: the node features beside, for every
  node, the sum of its neighbours' first 64 features (gathered along the symmetrised edge list and added up per
  node) divided by the node's degree clipped below at one.  It then rounds the combined array and the two weight
  matrices to bfloat16.  The reference forms the combined array by the same host operations, applied to the same
  slices of the edge list (it slices them twice where the program slices them once).  So, for every float
  interpretation, the array the first window stages is the rounding of exactly the reference's combined array, and
  the two weight windows stage the roundings of the weight arguments.  The host operations themselves (the gather,
  the two scatter-additions, the division) are never opened: both sides apply the same ones to the same values.
-/
import proofs.«154789_j84378927497574_1_alg».proof.Proof.Gen.KernelIdeal.Frame
import proofs.«154789_j84378927497574_1_alg».proof.Proof.Gen.ReferenceIdeal.Read
import Idealize.ShloMosaic.Lib.StableHlo.Run

noncomputable section

namespace Cert.KernelIdeal.Head

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The first weight window's array is the rounding of the first weight argument. -/
theorem w1_eq (c : Dev nD) :
    (V m c main_v28 : (⟨S192x256, .bf16⟩ : BufTy).Contents (Elt F)) = truncf .bf16 (m ((c : Thread nD τ).loc main_arg2)) bitsLt_bf16_f32 := by
  dsimp only [V, hostOps0]
  after_results

/-- The second weight window's array is the rounding of the second weight argument. -/
theorem w2_eq (c : Dev nD) :
    (V m c main_v29 : (⟨S256x128, .bf16⟩ : BufTy).Contents (Elt F)) = truncf .bf16 (m ((c : Thread nD τ).loc main_arg4)) bitsLt_bf16_f32 := by
  dsimp only [V, hostOps0]
  after_results

set_option maxHeartbeats 2000000 in
/-- The first window's array is the rounding of the reference's combined feature array of the same arguments. -/
theorem combined_eq (c : Dev nD) :
    (V m c main_v27 : (⟨S100000x192, .bf16⟩ : BufTy).Contents (Elt F))
      = truncf .bf16 (Cert.ReferenceIdeal.Read.val_main_v30 (F := F) (m ((c : Thread nD τ).loc main_arg0)) (m ((c : Thread nD τ).loc main_arg1))) bitsLt_bf16_f32 := by
  dsimp only [V, hostOps0]
  after_results
  rfl

end Cert.KernelIdeal.Head

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.MlpBody.lean ====
/-
  What the kernel body stores, read at one index of the block.

  The body loads a band of 4000 rows of the combined feature array, the two weight matrices and the two bias
  vectors, and stores one [4000, 128] value: the first matrix product into a zero accumulator, plus the first bias
  broadcast over the rows, clipped below at zero, then the second matrix product into a zero accumulator, plus the
  second bias broadcast over the rows.  Read at the extended reals every change of float format is the identity and
  a matrix product into zero is the plain sum of products over the contracted axis, so at row `p` and column `q` of
  the band the stored value is

      ∑ k < 256, max (∑ l < 192, c (p, l) * w1 (l, k) + b1 k) 0 * w2 (k, q) + b2 q,

  the perceptron of the specification applied to the band.
-/
import proofs.«154789_j84378927497574_1_alg».proof.Proof.Gen.KernelIdeal.Skeleton
import proofs.«154789_j84378927497574_1_alg».proof.Proof.LibPlainDot
import proofs.«154789_j84378927497574_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first matrix product into zero, at row `p` and hidden unit `k`: the sum over the 192 features. -/
theorem layer1_apply (x : FVec Ideal S4000x192 .bf16) (w : FVec Ideal S192x256 .bf16) (p : Fin 4000) (k : Fin 256) :
    matmul dot_S4000x192_S192x256_S4000x256_1_0_0_1_n_n none x w (constant S4000x256 .f32 0x00000000#32) (ix2 p k)
      = ∑ l : Fin 192, x (ix2 p l) * w (ix2 l k) := by
  refine (Ideal.matmul_constant_zero_apply dot_S4000x192_S192x256_S4000x256_1_0_0_1_n_n none x w (ix2 p k)).trans ?_
  exact PlainDot.sum_eq dot_S4000x192_S192x256_S4000x256_1_0_0_1_n_n rfl rfl rfl rfl rfl rfl x w p k

/-- The second matrix product into zero, at row `p` and output column `q`: the sum over the 256 hidden units. -/
theorem layer2_apply (h : FVec Ideal S4000x256 .bf16) (w : FVec Ideal S256x128 .bf16) (p : Fin 4000) (q : Fin 128) :
    matmul dot_S4000x256_S256x128_S4000x128_1_0_0_1_n_n none h w (constant S4000x128 .f32 0x00000000#32) (ix2 p q)
      = ∑ k : Fin 256, h (ix2 p k) * w (ix2 k q) := by
  refine (Ideal.matmul_constant_zero_apply dot_S4000x256_S256x128_S4000x128_1_0_0_1_n_n none h w (ix2 p q)).trans ?_
  exact PlainDot.sum_eq dot_S4000x256_S256x128_S4000x128_1_0_0_1_n_n rfl rfl rfl rfl rfl rfl h w p q

/-- The first bias, viewed as one row and broadcast over the 4000 rows, reads its entry `k` in every row. -/
theorem bias1_apply (b : FVec Ideal S256 .f32) (p : Fin 4000) (k : Fin 256) :
    broadcastTo S4000x256 (shapeCast S1x256 b shapeCasts_S256_S1x256) broadcasts_S1x256_S4000x256 (ix2 p k) = b (ix1 k) := by
  rw [broadcastTo_1b_ab_apply, shapeCast_a_1a_apply]

/-- The second bias, viewed as one row and broadcast over the 4000 rows, reads its entry `q` in every row. -/
theorem bias2_apply (b : FVec Ideal S128 .f32) (p : Fin 4000) (q : Fin 128) :
    broadcastTo S4000x128 (shapeCast S1x128 b shapeCasts_S128_S1x128) broadcasts_S1x128_S4000x128 (ix2 p q) = b (ix1 q) := by
  rw [broadcastTo_1b_ab_apply, shapeCast_a_1a_apply]

/-- The hidden activations the body forms, at row `p` and unit `k`. -/
theorem hidden_apply (c : FVec Ideal S4000x192 .bf16) (w1 : FVec Ideal S192x256 .bf16) (b1 : FVec Ideal S256 .f32)
    (p : Fin 4000) (k : Fin 256) :
    truncf (F := Ideal) .bf16 (maximumf (addf (matmul dot_S4000x192_S192x256_S4000x256_1_0_0_1_n_n none c w1 (constant S4000x256 .f32 0x00000000#32))
        (broadcastTo S4000x256 (shapeCast S1x256 b1 shapeCasts_S256_S1x256) broadcasts_S1x256_S4000x256))
      (broadcast S4000x256 (Scalar.ofBits (F := Ideal) .f32 0x00000000#32))) bitsLt_bf16_f32 (ix2 p k)
      = Mlp.hidden c w1 b1 p k := by
  show max (matmul (F := Ideal) dot_S4000x192_S192x256_S4000x256_1_0_0_1_n_n none c w1 (constant S4000x256 .f32 0x00000000#32) (ix2 p k)
        + broadcastTo S4000x256 (shapeCast S1x256 b1 shapeCasts_S256_S1x256) broadcasts_S1x256_S4000x256 (ix2 p k))
      (Ideal.ofBits .f32 0x00000000#32) = _
  rw [layer1_apply, bias1_apply, Ideal.ofBits_zero_f32]
  rfl

/-- THE STORED VALUE at row `p` and column `q` of the band is the perceptron of the loaded band. -/
theorem pay_apply (c : FVec Ideal S4000x192 .bf16) (w1 : FVec Ideal S192x256 .bf16) (b1 : FVec Ideal S256 .f32)
    (w2 : FVec Ideal S256x128 .bf16) (b2 : FVec Ideal S128 .f32) (p : Fin 4000) (q : Fin 128) :
    k0_pay1 (F := Ideal) c w1 b1 w2 b2 (ix2 p q) = Mlp.out c w1 b1 w2 b2 (ix2 p q) := by
  unfold k0_pay1
  rw [shapeCast_self, shapeCast_self, shapeCast_self]
  show matmul (F := Ideal) dot_S4000x256_S256x128_S4000x128_1_0_0_1_n_n none _ w2 (constant S4000x128 .f32 0x00000000#32) (ix2 p q)
      + broadcastTo S4000x128 (shapeCast S1x128 b2 shapeCasts_S128_S1x128) broadcasts_S1x128_S4000x128 (ix2 p q) = _
  rw [layer2_apply, bias2_apply, Mlp.out_ix2]
  refine congrArg (· + b2 (ix1 q)) (Finset.sum_congr rfl fun k _ => ?_)
  rw [hidden_apply]

end Cert.KernelIdeal.Body

end
-- ==== Proof.MlpKernel.lean ====
/-
  The kernel's result array, as one function of the arrays its region is launched on.

  The region has 25 grid points.  At point `t` the first window stages rows 4000 t … 4000 t + 3999 of the combined
  feature array (all 192 columns); the four parameter windows stage their whole arrays at every point; the output
  window writes back rows 4000 t … 4000 t + 3999 of the result (all 128 columns).  The body stores the perceptron of
  the staged band, and a row of the perceptron depends on that row of the combined array only, so what point `t`
  writes back is band `t` of the perceptron of the WHOLE combined array.  The 25 bands tile the 100000 rows (row
  `r` lies in band `r / 4000`), so after the run the result array is that perceptron, index by index.
-/
import proofs.«154789_j84378927497574_1_alg».proof.Proof.Gen.KernelIdeal.Value
import proofs.«154789_j84378927497574_1_alg».proof.Proof.MlpBody
import proofs.«154789_j84378927497574_1_alg».proof.Proof.MlpSpec
import Idealize.ShloMosaic.Lib.Pipeline.Value
import Idealize.ShloMosaic.Lib.ValueIdx

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The launched arrays and the staged blocks, at their literal types -/

/-- The combined feature array as the region finds it. -/
abbrev carr (c : Dev nD) : FVec Ideal S100000x192 .bf16 := V m c main_v27
/-- The first weight matrix as the region finds it. -/
abbrev w1arr (c : Dev nD) : FVec Ideal S192x256 .bf16 := V m c main_v28
/-- The first bias as the region finds it. -/
abbrev b1arr (c : Dev nD) : FVec Ideal S256 .f32 := V m c main_arg3
/-- The second weight matrix as the region finds it. -/
abbrev w2arr (c : Dev nD) : FVec Ideal S256x128 .bf16 := V m c main_v29
/-- The second bias as the region finds it. -/
abbrev b2arr (c : Dev nD) : FVec Ideal S128 .f32 := V m c main_arg5

/-- The band of the combined array staged at point `t`. -/
abbrev cblk (c : Dev nD) (t : Fin cfg0.N) : FVec Ideal S4000x192 .bf16 := iblk m c 0 t
/-- The first weight matrix as staged at point `t`. -/
abbrev w1blk (c : Dev nD) (t : Fin cfg0.N) : FVec Ideal S192x256 .bf16 := iblk m c 1 t
/-- The first bias as staged at point `t`. -/
abbrev b1blk (c : Dev nD) (t : Fin cfg0.N) : FVec Ideal S256 .f32 := iblk m c 2 t
/-- The second weight matrix as staged at point `t`. -/
abbrev w2blk (c : Dev nD) (t : Fin cfg0.N) : FVec Ideal S256x128 .bf16 := iblk m c 3 t
/-- The second bias as staged at point `t`. -/
abbrev b2blk (c : Dev nD) (t : Fin cfg0.N) : FVec Ideal S128 .f32 := iblk m c 4 t

/-- THE RESULT: the perceptron of the launched arrays. -/
def result (c : Dev nD) : S100000x128.Idx → EReal :=
  Mlp.out (carr m c) (w1arr m c) (b1arr m c) (w2arr m c) (b2arr m c)

/-! ## Which block each window stages at a point -/

theorem off2 : (![0, 0] : Fin 2 → Nat) = fun _ => 0 := funext fun a => by fin_cases a <;> rfl
theorem off1 : (![0] : Fin 1 → Nat) = fun _ => 0 := funext fun a => by fin_cases a; rfl

/-- The printed index maps over the grid: the band windows sit at block row `t`, the parameter windows at block 0. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the band staged at point `t` is row `4000 t + p` of the combined array. -/
theorem cblk_apply (c : Dev nD) (t : Fin cfg0.N) (p : Fin 4000) (l : Fin 192) (hp : t.val * 4000 + p.val < 100000) :
    cblk m c t (ix2 p l) = carr m c (ix2 ⟨t.val * 4000 + p.val, hp⟩ l) := by
  show V m c main_v27 (((cfg0.win 0).blk t).view.emb (ix2 p l)) = V m c main_v27 (ix2 ⟨t.val * 4000 + p.val, hp⟩ l)
  obtain ⟨e0, e1, -⟩ := block_index t
  refine congrArg (V m c main_v27) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 192 + 1 * l.val = l.val; rw [e1]; omega

/-- The first weight window stages its whole array at every point. -/
theorem w1blk_eq (c : Dev nD) (t : Fin cfg0.N) : w1blk m c t = w1arr m c := by
  funext y
  show V m c main_v28 (((cfg0.win 1).blk t).view.emb y) = V m c main_v28 y
  obtain ⟨-, -, e0, e1, -⟩ := block_index t
  refine congrArg (V m c main_v28) (funext fun a => Fin.ext ?_)
  match a with
  | ⟨0, _⟩ => show win0_1.index t (0 : Fin 2) * 192 + 1 * (y 0).val = (y 0).val; rw [e0]; omega
  | ⟨1, _⟩ => show win0_1.index t (1 : Fin 2) * 256 + 1 * (y 1).val = (y 1).val; rw [e1]; omega

/-- The first bias window stages its whole array at every point. -/
theorem b1blk_eq (c : Dev nD) (t : Fin cfg0.N) : b1blk m c t = b1arr m c := by
  funext y
  show V m c main_arg3 (((cfg0.win 2).blk t).view.emb y) = V m c main_arg3 y
  obtain ⟨-, -, -, -, e0, -⟩ := block_index t
  refine congrArg (V m c main_arg3) (funext fun a => Fin.ext ?_)
  match a with
  | ⟨0, _⟩ => show win0_2.index t (0 : Fin 1) * 256 + 1 * (y 0).val = (y 0).val; rw [e0]; omega

/-- The second weight window stages its whole array at every point. -/
theorem w2blk_eq (c : Dev nD) (t : Fin cfg0.N) : w2blk m c t = w2arr m c := by
  funext y
  show V m c main_v29 (((cfg0.win 3).blk t).view.emb y) = V m c main_v29 y
  obtain ⟨-, -, -, -, -, e0, e1, -⟩ := block_index t
  refine congrArg (V m c main_v29) (funext fun a => Fin.ext ?_)
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega

/-- The second bias window stages its whole array at every point. -/
theorem b2blk_eq (c : Dev nD) (t : Fin cfg0.N) : b2blk m c t = b2arr m c := by
  funext y
  show V m c main_arg5 (((cfg0.win 4).blk t).view.emb y) = V m c main_arg5 y
  obtain ⟨-, -, -, -, -, -, -, e0, -⟩ := block_index t
  refine congrArg (V m c main_arg5) (funext fun a => Fin.ext ?_)
  match a with
  | ⟨0, _⟩ => show win0_4.index t (0 : Fin 1) * 128 + 1 * (y 0).val = (y 0).val; rw [e0]; omega

/-- Entry `(p, q)` of the output block of point `t` sits at `(4000 t + p, q)` of the result array. -/
theorem out_emb (t : Fin cfg0.N) (p : Fin 4000) (q : Fin 128) (hp : t.val * 4000 + p.val < 100000) :
    ((cfg0.win 5).blk t).view.emb (ix2 p q) = (ix2 ⟨t.val * 4000 + p.val, hp⟩ q : S100000x128.Idx) := by
  obtain ⟨-, -, -, -, -, -, -, -, e0, e1⟩ := block_index t
  refine funext fun a => Fin.ext ?_
  match a with
  | ⟨0, _⟩ => show win0_5.index t (0 : Fin 2) * 4000 + 1 * p.val = t.val * 4000 + p.val; rw [e0]; omega
  | ⟨1, _⟩ => show win0_5.index t (1 : Fin 2) * 128 + 1 * q.val = q.val; rw [e1]; omega

/-! ## What a point writes back, and the array after the run -/

/-- WHAT POINT `t` WRITES BACK is band `t` of the perceptron of the whole launched arrays. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero off2]
  simp only [View.ld_unit_zero (S := S4000x192) off2, View.ld_unit_zero (S := S192x256) off2, View.ld_unit_zero (S := S256) off1,
    View.ld_unit_zero (S := S256x128) off2, View.ld_unit_zero (S := S128) off1]
  funext j
  obtain ⟨p, q, rfl⟩ : ∃ (p : Fin 4000) (q : Fin 128), j = ix2 p q := ⟨j 0, j 1, eq_ix2 j⟩
  have ht : t.val < 25 := by have h := t.isLt; have hN : cfg0.N = 25 := N_0; omega
  have hp : t.val * 4000 + p.val < 100000 := by have := p.isLt; omega
  show k0_pay1 (F := Ideal) (cblk m c t) (w1blk m c t) (b1blk m c t) (w2blk m c t) (b2blk m c t) (ix2 p q)
    = result m c (((cfg0.win 5).blk t).view.emb (ix2 p q))
  rw [out_emb t p q hp]
  refine (Cert.KernelIdeal.Body.pay_apply (cblk m c t) (w1blk m c t) (b1blk m c t) (w2blk m c t) (b2blk m c t) p q).trans ?_
  rw [w1blk_eq, b1blk_eq, w2blk_eq, b2blk_eq]
  exact Mlp.out_band (cblk m c t) (carr m c) (w1arr m c) (b1arr m c) (w2arr m c) (b2arr m c) p ⟨t.val * 4000 + p.val, hp⟩
    (fun l => cblk_apply m c t p l hp) q

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v30).slice (win0_5.rect t)).set ↔ _
  rw [View.set_slice_whole, Rect.mem_set_unit]
  exact Iff.rfl

/-- THE RESULT ARRAY after the run is the perceptron of the launched arrays: the 25 bands tile the rows. -/
theorem final (c : Dev nD) : (dats m 0 c).arrAt 5 cfg0.N = result m c :=
  (dats m 0 c).arrAt_eq_of_cover 5 (result m c) (fun t _ => flushed_eq m c t) fun i => by
    have hi0 : (i 0).val < 100000 := (i 0).isLt
    have hi1 : (i 1).val < 128 := (i 1).isLt
    have hN : cfg0.N = 25 := N_0
    refine ⟨⟨(i 0).val / 4000, by rw [hN]; omega⟩, flush0_5 _, ?_⟩
    rw [mem_blk]
    obtain ⟨-, -, -, -, -, -, -, -, e0, e1⟩ := block_index ⟨(i 0).val / 4000, by rw [hN]; omega⟩
    intro a
    match a with
    | ⟨0, _⟩ =>
      show win0_5.index ⟨(i 0).val / 4000, _⟩ (0 : Fin 2) * 4000 ≤ (i 0).val ∧ (i 0).val < win0_5.index ⟨(i 0).val / 4000, _⟩ (0 : Fin 2) * 4000 + 4000
      rw [e0]; show (i 0).val / 4000 * 4000 ≤ (i 0).val ∧ (i 0).val < (i 0).val / 4000 * 4000 + 4000; omega
    | ⟨1, _⟩ =>
      show win0_5.index ⟨(i 0).val / 4000, _⟩ (1 : Fin 2) * 128 ≤ (i 1).val ∧ (i 1).val < win0_5.index ⟨(i 0).val / 4000, _⟩ (1 : Fin 2) * 128 + 128
      rw [e1]; omega

/-- The kernel's run, re-posted: the result array at the perceptron of the launched arrays, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.Arr

end
-- ==== Proof.lean ====
/-
  A graph layer: mean aggregation over a symmetrised edge list, then a two-layer perceptron, row by row.

  Both programs first form, on the host, the combined feature array of 100000 nodes: each node's 128 features
  beside the sum of its neighbours' first 64 features divided by its degree clipped below at one (the edge list is
  symmetrised by concatenating it with its own reversal; sums per node are scatter-additions into zeros).  The
  reference then multiplies by a [192, 256] weight matrix, adds a bias, clips below at zero, multiplies by a
  [256, 128] weight matrix and adds a second bias, on all 100000 rows at once.  The kernel rounds the combined array
  and the two weight matrices to bfloat16 and does the same arithmetic 4000 rows at a time over a grid of 25 points,
  rounding the hidden activations to bfloat16 before the second product.

  Read at the extended reals every rounding is the identity and every matrix product is the plain sum of products
  over the contracted axis.  The combined array is formed by the same host operations from the same arguments in
  both programs and is carried as one value, never opened.  Each row of the perceptron depends on the same row of
  the combined array only, so the kernel's 25 bands of 4000 rows, which tile the 100000 rows, assemble exactly the
  reference's result.  No law beyond "equal sums of equal terms" is used, so the finiteness of the inputs is not
  needed for the equality of results; the precondition is only carried.

  The three frame claims: the kernel's two frames are the generated frame certificates; the reference has no
  kernel and its frame is its run with the result dropped.  The idealisation rewrote nothing, so the fourth claim is
  trivially true.
-/
import proofs.«154789_j84378927497574_1_alg».proof.Defs
import proofs.«154789_j84378927497574_1_alg».proof.Proof.Gen.Kernel
import proofs.«154789_j84378927497574_1_alg».proof.Proof.Gen.Kernel.Skeleton
import proofs.«154789_j84378927497574_1_alg».proof.Proof.Gen.Kernel.Launch
import proofs.«154789_j84378927497574_1_alg».proof.Proof.Gen.Kernel.Points
import proofs.«154789_j84378927497574_1_alg».proof.Proof.Gen.Kernel.Frame
import proofs.«154789_j84378927497574_1_alg».proof.Proof.Gen.KernelIdeal
import proofs.«154789_j84378927497574_1_alg».proof.Proof.Gen.KernelIdeal.Skeleton
import proofs.«154789_j84378927497574_1_alg».proof.Proof.Gen.KernelIdeal.Launch
import proofs.«154789_j84378927497574_1_alg».proof.Proof.Gen.KernelIdeal.Points
import proofs.«154789_j84378927497574_1_alg».proof.Proof.Gen.KernelIdeal.Frame
import proofs.«154789_j84378927497574_1_alg».proof.Proof.Gen.ReferenceIdeal
import proofs.«154789_j84378927497574_1_alg».proof.Proof.Gen.Pre_finite_inputs
import proofs.«154789_j84378927497574_1_alg».proof.Proof.Gen.KernelIdeal.Value
import proofs.«154789_j84378927497574_1_alg».proof.Proof.Gen.ReferenceIdeal.Run
import proofs.«154789_j84378927497574_1_alg».proof.Proof.Gen.ReferenceIdeal.Read
import proofs.«154789_j84378927497574_1_alg».proof.Proof.MlpSpec
import proofs.«154789_j84378927497574_1_alg».proof.Proof.MlpRef
import proofs.«154789_j84378927497574_1_alg».proof.Proof.MlpHead
import proofs.«154789_j84378927497574_1_alg».proof.Proof.MlpKernel
import Idealize.ShloMosaic.Adequacy
import Idealize.ShloMosaic.Init

noncomputable section

namespace Cert.Proof

open Idealize.ShloMosaic Idealize.ShloMosaic.TcCoe Idealize.SL.Sem

/-- The kernel's result, the perceptron of the arrays its region is launched on, is the perceptron of the
    reference's combined feature array and the four parameter ARGUMENTS: the launched combined array is the rounding
    of the reference's, the launched weight matrices are the roundings of the weight arguments, the biases are the
    arguments themselves, and at the extended reals a rounding is the identity. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.Arr.result m c
      = Mlp.out (Cert.ReferenceIdeal.Read.val_main_v30 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1)))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  have h0 : Cert.KernelIdeal.Arr.carr m c = Cert.ReferenceIdeal.Read.val_main_v30 (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1)) :=
    Cert.KernelIdeal.Head.combined_eq m c
  have h1 : Cert.KernelIdeal.Arr.w1arr m c = m ((c : Thread Cert.KernelIdeal.nD Cert.KernelIdeal.τ).loc Cert.KernelIdeal.main_arg2) :=
    Cert.KernelIdeal.Head.w1_eq m c
  have h2 : Cert.KernelIdeal.Arr.b1arr m c = m ((c : Thread Cert.KernelIdeal.nD Cert.KernelIdeal.τ).loc Cert.KernelIdeal.main_arg3) :=
    Cert.KernelIdeal.Gen.V_main_arg3 m c
  have h3 : Cert.KernelIdeal.Arr.w2arr m c = m ((c : Thread Cert.KernelIdeal.nD Cert.KernelIdeal.τ).loc Cert.KernelIdeal.main_arg4) :=
    Cert.KernelIdeal.Head.w2_eq m c
  have h4 : Cert.KernelIdeal.Arr.b2arr m c = m ((c : Thread Cert.KernelIdeal.nD Cert.KernelIdeal.τ).loc Cert.KernelIdeal.main_arg5) :=
    Cert.KernelIdeal.Gen.V_main_arg5 m c
  unfold Cert.KernelIdeal.Arr.result
  rw [h0, h1, h2, h3, h4]

/-- The kernel as printed runs and leaves its arguments unchanged: the generated frame certificate. -/
theorem frame_kernel : Cert.frame_Kernel := fun m ρ _ => Cert.Kernel.Gen.frame m ρ

/-- The idealised kernel runs and leaves its arguments unchanged: the generated frame certificate. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments both programs end with the perceptron of the same combined
    feature array and the same parameters. -/
theorem algebraic : Cert.algebraic_KernelIdeal_ReferenceIdeal := by
  intro m ρ m' ρ' _ hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefMlp.result_eq,
    (hagree c).1, (hagree c).2.1, (hagree c).2.2.1, (hagree c).2.2.2.1, (hagree c).2.2.2.2.1, (hagree c).2.2.2.2.2]
  exact (kernel_result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
